-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192 : Shape := ⟨2, ![4, 8192]⟩
abbrev S4x3x128 : Shape := ⟨3, ![4, 3, 128]⟩
abbrev S4x128 : Shape := ⟨2, ![4, 128]⟩
abbrev S4x1x128 : Shape := ⟨3, ![4, 1, 128]⟩
abbrev S4x128x1 : Shape := ⟨3, ![4, 128, 1]⟩
abbrev S4x1x8192 : Shape := ⟨3, ![4, 1, 8192]⟩
abbrev S4x128x8192 : Shape := ⟨3, ![4, 128, 8192]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S4x3x128, .f32⟩
  | .local _ .vmem, ⟨1, _⟩ => ⟨S4x3x128, .f32⟩
  | .local _ .vmem, ⟨2, _⟩ => ⟨S4x3x8192, .f32⟩
  | .local _ .vmem, ⟨3, _⟩ => ⟨S4x128, .f32⟩
  | .local _ .vmem, ⟨4, _⟩ => ⟨S4x128, .f32⟩
  | .local _ .vmem, ⟨5, _⟩ => ⟨S4x8192, .f32⟩
  | .local _ .vmem, ⟨6, _⟩ => ⟨S4x8192, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v29 : BitVec 1 := Scalar.cmpi .eq arg0 c63_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S4x3x128_S4x3x128_0_0_0 : ∀ a, (![0, 0, 0] : Fin 3 → Nat) a + S4x3x128.size a ≤ S4x3x128.size a
  h_S4x3x128 : 0 < S4x3x128.numel
  inb_S4x3x8192_S4x3x8192_0_0_0 : ∀ a, (![0, 0, 0] : Fin 3 → Nat) a + S4x3x8192.size a ≤ S4x3x8192.size a
  h_S4x3x8192 : 0 < S4x3x8192.numel
  reduces_S4x3x128_S4x128 : S4x3x128.Reduces [1] S4x128
  shapeCasts_S4x128_S4x1x128 : S4x128.ShapeCasts S4x1x128
  transposes_S4x1x128_p0_2_1_S4x128x1 : S4x1x128.Transposes [0, 2, 1] S4x128x1
  reduces_S4x3x8192_S4x8192 : S4x3x8192.Reduces [1] S4x8192
  shapeCasts_S4x8192_S4x1x8192 : S4x8192.ShapeCasts S4x1x8192
  broadcasts_S4x128x1_S4x128x8192 : S4x128x1.Broadcasts S4x128x8192
  broadcasts_S4x1x8192_S4x128x8192 : S4x1x8192.Broadcasts S4x128x8192
  reduces_S4x128x8192_S4x128 : S4x128x8192.Reduces [2] S4x128
  reduces_S4x128x8192_S4x8192 : S4x128x8192.Reduces [1] S4x8192
  inb_S4x128_S4x128_0_0 : ∀ a, (![0, 0] : Fin 2 → Nat) a + S4x128.size a ≤ S4x128.size a
  h_S4x128 : 0 < S4x128.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  reducesTo_S4x8192_S_d0_1 : S4x8192.ReducesTo [0, 1] S_
  h_S_ : 0 < S_.numel
  dot_S4x3x128_S4x3x8192_S4x128x8192_1_1_2_2_0_0_wf : DotDims.WF S4x3x128 S4x3x8192 S4x128x8192 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x128.size a ≤ S4x3x8192.size a
  hwx0_0 : ∀ i : grid0.Coords, EltTy.bits .f32 = 32 ∨ (Rect.block (s := S4x3x8192) S4x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3x8192.size a ≤ S4x3x8192.size a
  hwx0_1 : ∀ i : grid0.Coords, EltTy.bits .f32 = 32 ∨ (Rect.block (s := S4x3x8192) S4x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x8192.size a
  hwx0_2 : ∀ i : grid0.Coords, EltTy.bits .f32 = 32 ∨ (Rect.block (s := S4x8192) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8192.size a ≤ S4x8192.size a
  hwx0_3 : ∀ i : grid0.Coords, EltTy.bits .f32 = 32 ∨ (Rect.block (s := S4x8192) S4x8192.size (cc0_transform_3 i) (hinb0_3 i)).WholeWords (EltTy.packing .f32)

variable [Facts₀]

def dot_S4x3x128_S4x3x8192_S4x128x8192_1_1_2_2_0_0 : DotDims S4x3x128 S4x3x8192 S4x128x8192 where
  lhsContracting := [1]
  rhsContracting := [1]
  lhsNonContracting := [2]
  rhsNonContracting := [2]
  lhsBatch := [0]
  rhsBatch := [0]
  wf := dot_S4x3x128_S4x3x8192_S4x128x8192_1_1_2_2_0_0_wf

abbrev win0_0 : Pipeline.Window sig grid0 :=
  Pipeline.Window.ofSpec (Memref.whole main_arg0) S4x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Stores.lean ====
/-
  What one grid step of the kernel leaves behind, case by case, as plain functions of what it loaded.

  A step loads a group of 128 points of the first cloud (`x0`) and the whole second cloud (`x1`). Whatever the case,
  it stores into the first output's block the row minima of the distance tile (`k0_pay2 x0 x1`), and it leaves in
  the carried accumulator the meet of what the accumulator held with the tile's column minima
  (`k0_pay4 x0 x1 held`). The cases differ only in what "held" is and in the second output:
    first step  — the accumulator is first filled with +∞ (`k0_pay3`), so held = +∞ everywhere;
    middle step — held = what the step before left;
    last step   — as a middle step, and the accumulator's new contents are copied to the second output.
  Each statement reads a buffer's contents off the list of stores made into it: one whole-buffer store covers
  everything stored before it, and a load that follows a whole-buffer store reads what was stored.
-/
import proofs.«144142_j11948599017824_1_alg».proof.Proof.Gen.KernelIdeal.Frame
import Idealize.ShloMosaic.Lib.Pipeline.Value
import Idealize.ShloMosaic.Lib.Tactic

set_option maxRecDepth 16384

noncomputable section

namespace Cert.KernelIdeal.Stores

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-! ## First step -/

theorem first_rowMin (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : cond0_0 i) (hc1 : ¬cond0_1 i)
    (x0 : Vec F S4x3x128 .f32) (x1 : Vec F S4x3x8192 .f32) :
    out0_A_2 c i a1 h1 a2 h2 a3 h3 a4 h4 a5 h5 hc0 hc1 x0 x1 = k0_pay2 x0 x1 := by
  unfold out0_A_2
  rw [View.read_writes_eq_canon _ _ _ (cover0_A_2 c i a1 h1 a2 h2 a3 h3 a4 h4 a5 h5 hc0 hc1 x0 x1)]
  unfold kernelRun0_A
  dsimp only
  sl_unfold_words
  rw [View.canon_unit_zero hz2]
  simp only [View.readAt_eq_ld, h1.read_unread, h2.read_unread, View.ld_unit_zero (S := S4x3x128) hz3, View.ld_unit_zero (S := S4x3x8192) hz3]

theorem first_acc (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : cond0_0 i) (hc1 : ¬cond0_1 i)
    (x0 : Vec F S4x3x128 .f32) (x1 : Vec F S4x3x8192 .f32) :
    sout0_A_0 c i a1 h1 a2 h2 a3 h3 a4 h4 a5 h5 hc0 hc1 x0 x1 = k0_pay4 x0 x1 (k0_pay3 (F := F)) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S4x8192) hz2, View.readCov_unit_zero (S := S4x8192) _ hz2]
  simp only [View.readAt_eq_ld, h1.read_unread, h2.read_unread, View.ld_unit_zero (S := S4x3x128) hz3, View.ld_unit_zero (S := S4x3x8192) hz3]

/-! ## Middle steps -/

theorem middle_rowMin (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : ¬cond0_0 i) (hc1 : ¬cond0_1 i)
    (x0 : Vec F S4x3x128 .f32) (x1 : Vec F S4x3x8192 .f32) (xs0 : Vec F S4x8192 .f32) :
    out0_B_2 c i a1 h1 a2 h2 a3 h3 a4 h4 a5 h5 hc0 hc1 x0 x1 xs0 = k0_pay2 x0 x1 := by
  unfold out0_B_2
  rw [View.read_writes_eq_canon _ _ _ (cover0_B_2 c i a1 h1 a2 h2 a3 h3 a4 h4 a5 h5 hc0 hc1 x0 x1 xs0)]
  unfold kernelRun0_B
  dsimp only
  sl_unfold_words
  rw [View.canon_unit_zero hz2]
  simp only [View.readAt_eq_ld, h1.read_unread, h2.read_unread, View.ld_unit_zero (S := S4x3x128) hz3, View.ld_unit_zero (S := S4x3x8192) hz3]

theorem middle_acc (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : ¬cond0_0 i) (hc1 : ¬cond0_1 i)
    (x0 : Vec F S4x3x128 .f32) (x1 : Vec F S4x3x8192 .f32) (xs0 : Vec F S4x8192 .f32) :
    sout0_B_0 c i a1 h1 a2 h2 a3 h3 a4 h4 a5 h5 hc0 hc1 x0 x1 xs0 = k0_pay4 x0 x1 xs0 := by
  unfold sout0_B_0
  rw [View.read_writes_eq_canon _ _ _ (scover0_B_0 c i a1 h1 a2 h2 a3 h3 a4 h4 a5 h5 hc0 hc1 x0 x1 xs0)]
  unfold kernelRun0_B
  dsimp only
  sl_unfold_words
  rw [View.canon_unit_zero hz2]
  simp only [View.readAt_eq_ld, h1.read_unread, h2.read_unread, h5.read_unread, View.ld_unit_zero (S := S4x3x128) hz3, View.ld_unit_zero (S := S4x3x8192) hz3, View.ld_unit_zero (S := S4x8192) hz2]

/-! ## Last step -/

theorem last_rowMin (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : ¬cond0_0 i) (hc1 : cond0_1 i)
    (x0 : Vec F S4x3x128 .f32) (x1 : Vec F S4x3x8192 .f32) (xs0 : Vec F S4x8192 .f32) :
    out0_C_2 c i a1 h1 a2 h2 a3 h3 a4 h4 a5 h5 hc0 hc1 x0 x1 xs0 = k0_pay2 x0 x1 := by
  unfold out0_C_2
  rw [View.read_writes_eq_canon _ _ _ (cover0_C_2 c i a1 h1 a2 h2 a3 h3 a4 h4 a5 h5 hc0 hc1 x0 x1 xs0)]
  unfold kernelRun0_C
  dsimp only
  sl_unfold_words
  rw [View.canon_unit_zero hz2]
  simp only [View.readAt_eq_ld, h1.read_unread, h2.read_unread, View.ld_unit_zero (S := S4x3x128) hz3, View.ld_unit_zero (S := S4x3x8192) hz3]

theorem last_acc (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : ¬cond0_0 i) (hc1 : cond0_1 i)
    (x0 : Vec F S4x3x128 .f32) (x1 : Vec F S4x3x8192 .f32) (xs0 : Vec F S4x8192 .f32) :
    sout0_C_0 c i a1 h1 a2 h2 a3 h3 a4 h4 a5 h5 hc0 hc1 x0 x1 xs0 = k0_pay4 x0 x1 xs0 := by
  unfold sout0_C_0
  rw [View.read_writes_eq_canon _ _ _ (scover0_C_0 c i a1 h1 a2 h2 a3 h3 a4 h4 a5 h5 hc0 hc1 x0 x1 xs0)]
  unfold kernelRun0_C
  dsimp only
  sl_unfold_words
  rw [View.canon_unit_zero hz2]
  simp only [View.readAt_eq_ld, h1.read_unread, h2.read_unread, h5.read_unread, View.ld_unit_zero (S := S4x3x128) hz3, View.ld_unit_zero (S := S4x3x8192) hz3, View.ld_unit_zero (S := S4x8192) hz2]

theorem last_colMin (c : Dev nD) (i : grid0.Coords) (a1 : Memref sig .tc .vmem S4x3x128 .f32) (h1 : a1.IsWhole) (a2 : Memref sig .tc .vmem S4x3x8192 .f32) (h2 : a2.IsWhole) (a3 : Memref sig .tc .vmem S4x128 .f32) (h3 : a3.IsWhole) (a4 : Memref sig .tc .vmem S4x8192 .f32) (h4 : a4.IsWhole) (a5 : Memref sig .tc .vmem S4x8192 .f32) (h5 : a5.IsWhole) (hc0 : ¬cond0_0 i) (hc1 : cond0_1 i)
    (x0 : Vec F S4x3x128 .f32) (x1 : Vec F S4x3x8192 .f32) (xs0 : Vec F S4x8192 .f32) :
    out0_C_3 c i a1 h1 a2 h2 a3 h3 a4 h4 a5 h5 hc0 hc1 x0 x1 xs0 = k0_pay4 x0 x1 xs0 := by
  unfold out0_C_3
  rw [View.read_writes_eq_canon _ _ _ (cover0_C_3 c i a1 h1 a2 h2 a3 h3 a4 h4 a5 h5 hc0 hc1 x0 x1 xs0)]
  unfold kernelRun0_C
  dsimp only
  sl_unfold_words
  rw [View.canon_unit_zero hz2]
  simp only [View.readAt_eq_ld, h1.read_unread, h2.read_unread, h5.read_unread, View.readCov_unit_zero (S := S4x8192) _ hz2, View.ld_unit_zero (S := S4x3x128) hz3, View.ld_unit_zero (S := S4x3x8192) hz3, View.ld_unit_zero (S := S4x8192) hz2]

end Cert.KernelIdeal.Stores
end
-- ==== Proof.Nearest.lean ====
/-
  The mathematics both programs compute, stated once over the extended reals, and the one law about minima that
  joins them.

  Two clouds of points with three coordinates, `A` with `N` points and `B` with `M` points, in each of four
  batches, stored coordinate-major: entry (b, c, n) is coordinate c of point n of batch b. `sqDist A B b n k` is the
  squared distance between point n of A and point k of B in batch b, in the expanded form |a|² + |b|² − 2·⟨a, b⟩,
  clamped below at zero. `nearestOfA` gives every point of A its least squared distance to a point of B,
  `nearestOfB` every point of B its least squared distance to a point of A; `loss` is the mean of the first plus ten
  times the mean of the second (the symmetric nearest-neighbour loss of two point clouds).

  The law: a minimum over 8192 indices may be taken group by group, 64 consecutive groups of 128, folding each group's
  minimum into a running one that starts at +∞ — minima neither care about order nor about grouping, and +∞ is
  neutral. It is proved from the universal property of a minimum (x is below it iff x is below every term).
-/
import Idealize.ShloMosaic.PureOps.Ideal
import Idealize.ShloMosaic.Lib.ValueIdx

noncomputable section

namespace Cert.Nearest

open Idealize.ShloMosaic Idealize.ShloMosaic.ValueIdx

/-- Four batches of `N` points, coordinate-major: (batch, coordinate, point). -/
abbrev Cloud (N : Nat) : Shape := ⟨3, ![4, 3, N]⟩
/-- One number for each point of each batch: (batch, point). -/
abbrev PerPoint (N : Nat) : Shape := ⟨2, ![4, N]⟩
/-- One number. -/
abbrev One : Shape := ⟨0, ![]⟩

/-- The literal 2.0 of the cross term. -/
abbrev two : EReal := Ideal.ofBits .f32 0x40000000#32
/-- The literal 0.0 the distance is clamped at. -/
abbrev zero : EReal := Ideal.ofBits .f32 0x00000000#32
/-- The literal +∞ every minimum starts from. -/
abbrev top : EReal := Ideal.ofBits .f32 0x7F800000#32

/-- |a|² of point `n` of batch `b`. -/
def normSq {N : Nat} (A : (Cloud N).Idx → EReal) (b : Fin 4) (n : Fin N) : EReal :=
  ∑ c : Fin 3, A (ix3 b c n) * A (ix3 b c n)

/-- ⟨a, b⟩ of point `n` of `A` and point `k` of `B`, batch `b`. -/
def pairing {N M : Nat} (A : (Cloud N).Idx → EReal) (B : (Cloud M).Idx → EReal) (b : Fin 4) (n : Fin N) (k : Fin M) : EReal :=
  ∑ c : Fin 3, A (ix3 b c n) * B (ix3 b c k)

/-- The clamped squared distance max(|a|² + |b|² − 2⟨a, b⟩, 0). -/
def sqDist {N M : Nat} (A : (Cloud N).Idx → EReal) (B : (Cloud M).Idx → EReal) (b : Fin 4) (n : Fin N) (k : Fin M) : EReal :=
  max (normSq A b n + normSq B b k - two * pairing A B b n k) zero

/-- The minimum of finitely many extended reals, from +∞. -/
def minOver {K : Nat} (f : Fin K → EReal) : EReal := (Finset.univ : Finset (Fin K)).fold min top f

/-- For each point of `A`: its least squared distance to a point of `B`. -/
def nearestOfA {N M : Nat} (A : (Cloud N).Idx → EReal) (B : (Cloud M).Idx → EReal) : (PerPoint N).Idx → EReal :=
  fun j => minOver fun k : Fin M => sqDist A B (j 0) (j 1) k

/-- For each point of `B`: its least squared distance to a point of `A`. -/
def nearestOfB {N M : Nat} (A : (Cloud N).Idx → EReal) (B : (Cloud M).Idx → EReal) : (PerPoint M).Idx → EReal :=
  fun j => minOver fun n : Fin N => sqDist A B (j 0) n (j 1)

/-- mean(dx) + 10 · mean(dy) over 4 × 8192 numbers each, as both programs spell it: sum from zero, divide by
    32768, scale the second by ten, add. Stated at any float instance; nothing below opens it. -/
def loss {F : FTy → Type} [FloatOps F] (h : (PerPoint 8192).ReducesTo [0, 1] One) (hu : 0 < One.numel)
    (dx dy : FVec F (PerPoint 8192) .f32) : FVec F One .f32 :=
  addf (Host.divf (Host.reduceAdd dx (constant One .f32 0x00000000#32) h hu) (constant One .f32 0x47000000#32))
    (mulf (Host.divf (Host.reduceAdd dy (constant One .f32 0x00000000#32) h hu) (constant One .f32 0x47000000#32))
      (constant One .f32 0x41200000#32))

/-! ## Minima, group by group -/

/-- x is below a minimum from +∞ iff it is below +∞ and below every term. -/
theorem le_minOver {K : Nat} (f : Fin K → EReal) (x : EReal) : x ≤ minOver f ↔ x ≤ top ∧ ∀ k, x ≤ f k := by
  unfold minOver
  rw [Finset.le_fold_min]
  exact and_congr_right fun _ => ⟨fun h k => h k (Finset.mem_univ k), fun h k _ => h k⟩

/-- The minimum of `f` over the indices below `128·t`: what a running minimum holds after `t` groups. -/
def minBelow (f : Fin 8192 → EReal) (t : Nat) : EReal :=
  (Finset.univ.filter fun n : Fin 8192 => n.val < 128 * t).fold min top f

theorem le_minBelow (f : Fin 8192 → EReal) (t : Nat) (x : EReal) :
    x ≤ minBelow f t ↔ x ≤ top ∧ ∀ n : Fin 8192, n.val < 128 * t → x ≤ f n := by
  unfold minBelow
  rw [Finset.le_fold_min]
  exact and_congr_right fun _ => ⟨fun h n hn => h n (Finset.mem_filter.mpr ⟨Finset.mem_univ n, hn⟩),
    fun h n hn => h n (Finset.mem_filter.mp hn).2⟩

/-- Member `r` of group `t`: index `128·t + r`. -/
def group (t : Nat) (ht : t < 64) (r : Fin 128) : Fin 8192 := ⟨128 * t + r.val, by have := r.isLt; omega⟩

@[simp] theorem group_val (t : Nat) (ht : t < 64) (r : Fin 128) : (group t ht r).val = 128 * t + r.val := rfl

/-- Before any group the running minimum is +∞. -/
theorem minBelow_zero (f : Fin 8192 → EReal) : minBelow f 0 = top := by
  refine eq_of_forall_le_iff fun x => ?_
  rw [le_minBelow]
  exact ⟨fun h => h.1, fun h => ⟨h, fun n hn => absurd hn (by omega)⟩⟩

/-- One more group: the running minimum meets that group's minimum. -/
theorem minBelow_succ (f : Fin 8192 → EReal) (t : Nat) (ht : t < 64) :
    minBelow f (t + 1) = min (minBelow f t) (minOver fun r : Fin 128 => f (group t ht r)) := by
  refine eq_of_forall_le_iff fun x => ?_
  rw [le_min_iff, le_minBelow, le_minBelow, le_minOver]
  constructor
  · rintro ⟨h0, h⟩
    exact ⟨⟨h0, fun n hn => h n (by omega)⟩, h0, fun r => h _ (by have := r.isLt; simp only [group_val]; omega)⟩
  · rintro ⟨⟨h0, h⟩, _, hg⟩
    refine ⟨h0, fun n hn => ?_⟩
    by_cases hlt : n.val < 128 * t
    · exact h n hlt
    · have e : n = group t ht ⟨n.val - 128 * t, by omega⟩ := Fin.ext (by simp only [group_val]; omega)
      rw [e]; exact hg _

/-- After all 64 groups the running minimum is the minimum over everything. -/
theorem minBelow_all (f : Fin 8192 → EReal) : minBelow f 64 = minOver f := by
  refine eq_of_forall_le_iff fun x => ?_
  rw [le_minBelow, le_minOver]
  exact and_congr_right fun _ => ⟨fun h n => h n (by have := n.isLt; omega), fun h n _ => h n⟩

/-! ## A group of points of a cloud -/

/-- If `A'` holds the points of group `t` of `A`, distances from `A'` are distances from those points of `A`. -/
theorem sqDist_group {M : Nat} (A : (Cloud 8192).Idx → EReal) (A' : (Cloud 128).Idx → EReal) (B : (Cloud M).Idx → EReal)
    (t : Nat) (ht : t < 64) (hA : ∀ (b : Fin 4) (c : Fin 3) (r : Fin 128), A' (ix3 b c r) = A (ix3 b c (group t ht r)))
    (b : Fin 4) (r : Fin 128) (k : Fin M) : sqDist A' B b r k = sqDist A B b (group t ht r) k := by
  unfold sqDist normSq pairing
  simp only [hA]

end Cert.Nearest

end
-- ==== Proof.Tile.lean ====
/-
  The kernel's arithmetic read entry by entry, over the extended reals.

  One grid step holds a group of 128 points of the first cloud (`x0`, laid out batch × coordinate × point) and all
  8192 points of the second (`x1`). Its distance tile has, at (batch b, row r, column k), the clamped squared
  distance between point r of the group and point k of the second cloud: the row's |a|² arrives through a sum over
  the coordinate axis, a unit axis inserted, a transposition and a broadcast along the columns; the column's |b|²
  through a sum, a unit axis and a broadcast along the rows; the cross term is the matrix unit's batched product
  contracting the coordinate axis, into a zero accumulator. Each of these is read at an index below, and then the
  three things a step stores: the tile's row minima, the +∞ fill, and the accumulator met with the column minima.
-/
import proofs.«144142_j11948599017824_1_alg».proof.Proof.Gen.KernelIdeal.Skeleton
import proofs.«144142_j11948599017824_1_alg».proof.Proof.Nearest
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx
open Cert.KernelIdeal Cert.KernelIdeal.Gen Cert.Nearest

/-! ## The batched product's operand indices -/

theorem lhs_batch (i : S4x128x8192.Idx) (q : dot_S4x3x128_S4x3x8192_S4x128x8192_1_1_2_2_0_0.contr.Idx) :
    (dot_S4x3x128_S4x3x8192_S4x128x8192_1_1_2_2_0_0.lhsIdx i q 0).val = (i 0).val := by
  unfold DotDims.lhsIdx
  rw [dif_pos (show (0 : Fin S4x3x128.rank) ∈ dot_S4x3x128_S4x3x8192_S4x128x8192_1_1_2_2_0_0.lhsBatch by decide)]
  rfl
theorem lhs_coord (i : S4x128x8192.Idx) (q : dot_S4x3x128_S4x3x8192_S4x128x8192_1_1_2_2_0_0.contr.Idx) :
    (dot_S4x3x128_S4x3x8192_S4x128x8192_1_1_2_2_0_0.lhsIdx i q 1).val = (q ⟨0, by decide⟩).val :=
  dot_S4x3x128_S4x3x8192_S4x128x8192_1_1_2_2_0_0.lhsIdx_val_of_single rfl i q
theorem lhs_point (i : S4x128x8192.Idx) (q : dot_S4x3x128_S4x3x8192_S4x128x8192_1_1_2_2_0_0.contr.Idx) :
    (dot_S4x3x128_S4x3x8192_S4x128x8192_1_1_2_2_0_0.lhsIdx i q 2).val = (i 1).val := by
  unfold DotDims.lhsIdx
  rw [dif_neg (show ¬(2 : Fin S4x3x128.rank) ∈ dot_S4x3x128_S4x3x8192_S4x128x8192_1_1_2_2_0_0.lhsBatch by decide), dif_pos (show (2 : Fin S4x3x128.rank) ∈ dot_S4x3x128_S4x3x8192_S4x128x8192_1_1_2_2_0_0.lhsNonContracting by decide)]
  rfl
theorem rhs_batch (i : S4x128x8192.Idx) (q : dot_S4x3x128_S4x3x8192_S4x128x8192_1_1_2_2_0_0.contr.Idx) :
    (dot_S4x3x128_S4x3x8192_S4x128x8192_1_1_2_2_0_0.rhsIdx i q 0).val = (i 0).val := by
  unfold DotDims.rhsIdx
  rw [dif_pos (show (0 : Fin S4x3x8192.rank) ∈ dot_S4x3x128_S4x3x8192_S4x128x8192_1_1_2_2_0_0.rhsBatch by decide)]
  rfl
theorem rhs_coord (i : S4x128x8192.Idx) (q : dot_S4x3x128_S4x3x8192_S4x128x8192_1_1_2_2_0_0.contr.Idx) :
    (dot_S4x3x128_S4x3x8192_S4x128x8192_1_1_2_2_0_0.rhsIdx i q 1).val = (q ⟨0, by decide⟩).val :=
  dot_S4x3x128_S4x3x8192_S4x128x8192_1_1_2_2_0_0.rhsIdx_val_of_single rfl i q
theorem rhs_point (i : S4x128x8192.Idx) (q : dot_S4x3x128_S4x3x8192_S4x128x8192_1_1_2_2_0_0.contr.Idx) :
    (dot_S4x3x128_S4x3x8192_S4x128x8192_1_1_2_2_0_0.rhsIdx i q 2).val = (i 2).val := by
  unfold DotDims.rhsIdx
  rw [dif_neg (show ¬(2 : Fin S4x3x8192.rank) ∈ dot_S4x3x128_S4x3x8192_S4x128x8192_1_1_2_2_0_0.rhsBatch by decide), dif_pos (show (2 : Fin S4x3x8192.rank) ∈ dot_S4x3x128_S4x3x8192_S4x128x8192_1_1_2_2_0_0.rhsNonContracting by decide)]
  rfl

/-- The cross term: the batched product at (b, r, k) is ⟨point r of the group, point k of the second cloud⟩. -/
theorem cross_apply (x0 : Vec Ideal S4x3x128 .f32) (x1 : Vec Ideal S4x3x8192 .f32) (b : Fin 4) (r : Fin 128) (k : Fin 8192) :
    (matmul (F := Ideal) (φ₁ := .f32) (φ₂ := .f32) dot_S4x3x128_S4x3x8192_S4x128x8192_1_1_2_2_0_0 none x0 x1 (constant (F := Ideal) S4x128x8192 .f32 0x00000000#32) (ix3 b r k) : EReal)
      = pairing (N := 128) (M := 8192) x0 x1 b r k := by
  simp only [matmul]
  rw [Ideal.matmul_constant_zero_apply, ← Equiv.sum_comp (contrEquiv1 dot_S4x3x128_S4x3x8192_S4x128x8192_1_1_2_2_0_0 3 rfl rfl).symm]
  unfold pairing
  refine Finset.sum_congr rfl fun c _ => ?_
  have hk := contrEquiv1_symm_val dot_S4x3x128_S4x3x8192_S4x128x8192_1_1_2_2_0_0 3 rfl rfl c
  have el : dot_S4x3x128_S4x3x8192_S4x128x8192_1_1_2_2_0_0.lhsIdx (ix3 b r k) ((contrEquiv1 dot_S4x3x128_S4x3x8192_S4x128x8192_1_1_2_2_0_0 3 rfl rfl).symm c) = ix3 b c r := funext fun a => Fin.ext (by
    match a with
    | ⟨0, _⟩ => exact lhs_batch _ _
    | ⟨1, _⟩ => exact (lhs_coord _ _).trans hk
    | ⟨2, _⟩ => exact lhs_point _ _)
  have er : dot_S4x3x128_S4x3x8192_S4x128x8192_1_1_2_2_0_0.rhsIdx (ix3 b r k) ((contrEquiv1 dot_S4x3x128_S4x3x8192_S4x128x8192_1_1_2_2_0_0 3 rfl rfl).symm c) = ix3 b c k := funext fun a => Fin.ext (by
    match a with
    | ⟨0, _⟩ => exact rhs_batch _ _
    | ⟨1, _⟩ => exact (rhs_coord _ _).trans hk
    | ⟨2, _⟩ => exact rhs_point _ _)
  rw [el, er]

/-! ## The two squared norms, through their layout changes -/

/-- A sum over the coordinate axis of a batch × coordinate × point array. -/
theorem coordSum_apply {N : Nat} (v : FVec Ideal ⟨3, ![4, 3, N]⟩ .f32) (h : (⟨3, ![4, 3, N]⟩ : Shape).Reduces [1] ⟨2, ![4, N]⟩)
    (b : Fin 4) (n : Fin N) :
    (multiReduction (F := Ideal) .add [1] ⟨2, ![4, N]⟩ v 0x00000000#32 h (.inl rfl) rfl (ix2 b n) : EReal) = ∑ c : Fin 3, v (ix3 b c n) := by
  refine (Ideal.multiReduction_add_single v 0x00000000#32 h (.inl rfl) rfl (ix2 b n)).trans ?_
  refine Finset.sum_congr rfl fun c _ => congrArg v (funext fun a => Fin.ext ?_)
  match a with
  | ⟨0, _⟩ => rfl
  | ⟨1, _⟩ => rfl
  | ⟨2, _⟩ => rfl

/-- A per-point array given a unit middle axis. -/
theorem midUnit_apply {N : Nat} (v : (⟨2, ![4, N]⟩ : Shape).Idx → EReal) (h : (⟨2, ![4, N]⟩ : Shape).ShapeCasts ⟨3, ![4, 1, N]⟩)
    (b : Fin 4) (z : Fin 1) (n : Fin N) : shapeCast ⟨3, ![4, 1, N]⟩ v h (ix3 b z n) = v (ix2 b n) := by
  refine shapeCast_apply v h _ _ ?_
  rw [Shape.rowMajor_val_two, Shape.rowMajor_val_three]
  have : z.val = 0 := by omega
  show (b.val * N + n.val) = (b.val * 1 + z.val) * N + n.val
  rw [this]; ring

/-- |a|² of row r, as the tile's rows see it: summed over the coordinate axis, given a unit axis, transposed so that
    the points run down the rows, and repeated along every column. -/
theorem rowNorm_apply (x0 : Vec Ideal S4x3x128 .f32) (hr : S4x3x128.Reduces [1] S4x128) (hc : S4x128.ShapeCasts S4x1x128)
    (ht : S4x1x128.Transposes [0, 2, 1] S4x128x1) (hb : S4x128x1.Broadcasts S4x128x8192) (b : Fin 4) (r : Fin 128) (k : Fin 8192) :
    (broadcastTo S4x128x8192 (transpose S4x128x1 [0, 2, 1] (shapeCast S4x1x128
        (multiReduction (F := Ideal) .add [1] S4x128 (mulf x0 x0) 0x00000000#32 hr (.inl rfl) rfl) hc) ht) hb (ix3 b r k) : EReal)
      = normSq (N := 128) x0 b r :=
  (broadcastTo_apply _ hb (ix3 b r k) (ix3 b r (0 : Fin 1)) (fun a => match a with
    | ⟨0, _⟩ => rfl
    | ⟨1, _⟩ => rfl
    | ⟨2, _⟩ => rfl)).trans
  ((transpose_ix3_021_apply _ ht b r (0 : Fin 1)).trans
  ((midUnit_apply _ hc b 0 r).trans
  (coordSum_apply (mulf x0 x0) hr b r)))

/-- |b|² of column k, as the tile's columns see it: summed over the coordinate axis, given a unit axis, and repeated
    down every row. -/
theorem colNorm_apply (x1 : Vec Ideal S4x3x8192 .f32) (hr : S4x3x8192.Reduces [1] S4x8192) (hc : S4x8192.ShapeCasts S4x1x8192)
    (hb : S4x1x8192.Broadcasts S4x128x8192) (b : Fin 4) (r : Fin 128) (k : Fin 8192) :
    (broadcastTo S4x128x8192 (shapeCast S4x1x8192
        (multiReduction (F := Ideal) .add [1] S4x8192 (mulf x1 x1) 0x00000000#32 hr (.inl rfl) rfl) hc) hb (ix3 b r k) : EReal)
      = normSq (N := 8192) x1 b k :=
  (broadcastTo_apply _ hb (ix3 b r k) (ix3 b (0 : Fin 1) k) (fun a => match a with
    | ⟨0, _⟩ => rfl
    | ⟨1, _⟩ => rfl
    | ⟨2, _⟩ => rfl)).trans
  ((midUnit_apply _ hc b 0 k).trans
  (coordSum_apply (mulf x1 x1) hr b k))

/-- The distance tile at (b, r, k): the clamped squared distance from point r of the group to point k. -/
theorem tile_apply (x0 : Vec Ideal S4x3x128 .f32) (x1 : Vec Ideal S4x3x8192 .f32) (b : Fin 4) (r : Fin 128) (k : Fin 8192) :
    (k0_pay1 (F := Ideal) x0 x1 (ix3 b r k) : EReal) = sqDist (N := 128) (M := 8192) x0 x1 b r k := by
  unfold k0_pay1 sqDist
  dsimp only
  exact congrArg₂ max (congrArg₂ (· - ·) (congrArg₂ (· + ·) (rowNorm_apply x0 _ _ _ _ b r k) (colNorm_apply x1 _ _ _ b r k))
    (congrArg₂ (· * ·) rfl (cross_apply x0 x1 b r k))) rfl

/-! ## Minima along one axis of the tile -/

/-- A minimum-reduction over one axis is, at each kept index, the minimum from the start value over that axis's
    coordinates (the order is immaterial: minima commute and associate). -/
theorem minReduce_single {s t : Shape} {a : Fin s.rank} (src : FVec Ideal s .f32) (acc : BitVec 32)
    (h : s.Reduces [a] t) (hφ : FKind.Formats .f32) (hacc : acc = FKind.minimumf.neutral .f32 hφ) (j : t.Idx) :
    (multiReduction (F := Ideal) .minimumf [a] t src acc h hφ hacc j : EReal)
      = (Finset.univ : Finset (Fin (s.size a))).fold min (Ideal.ofBits .f32 acc) (src ∘ h.lift j) := by
  rw [multiReduction_minimumf_eq_fold]
  exact h.fold_filter_drop_single _ _ src j

/-- The tile's row minima: for point r of the group, its least squared distance to the second cloud. -/
theorem rowMin_apply (x0 : Vec Ideal S4x3x128 .f32) (x1 : Vec Ideal S4x3x8192 .f32) (b : Fin 4) (r : Fin 128) :
    (k0_pay2 (F := Ideal) x0 x1 (ix2 b r) : EReal) = minOver fun k : Fin 8192 => sqDist (N := 128) (M := 8192) x0 x1 b r k := by
  unfold k0_pay2
  dsimp only
  refine (minReduce_single (k0_pay1 (F := Ideal) x0 x1) 0x7F800000#32 _ (.inl rfl) rfl (ix2 b r)).trans ?_
  unfold minOver
  refine Finset.fold_congr fun k _ => ?_
  exact (congrArg (k0_pay1 (F := Ideal) x0 x1) (funext fun a => Fin.ext (by
    match a with
    | ⟨0, _⟩ => rfl
    | ⟨1, _⟩ => rfl
    | ⟨2, _⟩ => rfl))).trans (tile_apply x0 x1 b r k)

/-- The tile's column minima: for point k of the second cloud, its least squared distance to the group. -/
theorem colMin_apply (x0 : Vec Ideal S4x3x128 .f32) (x1 : Vec Ideal S4x3x8192 .f32) (h : S4x128x8192.Reduces [1] S4x8192)
    (b : Fin 4) (k : Fin 8192) :
    (multiReduction (F := Ideal) .minimumf [1] S4x8192 (k0_pay1 (F := Ideal) x0 x1) 0x7F800000#32 h (.inl rfl) rfl (ix2 b k) : EReal)
      = minOver fun r : Fin 128 => sqDist (N := 128) (M := 8192) x0 x1 b r k := by
  refine (minReduce_single (k0_pay1 (F := Ideal) x0 x1) 0x7F800000#32 h (.inl rfl) rfl (ix2 b k)).trans ?_
  unfold minOver
  refine Finset.fold_congr fun r _ => ?_
  exact (congrArg (k0_pay1 (F := Ideal) x0 x1) (funext fun a => Fin.ext (by
    match a with
    | ⟨0, _⟩ => rfl
    | ⟨1, _⟩ => rfl
    | ⟨2, _⟩ => rfl))).trans (tile_apply x0 x1 b r k)

/-- What the first step fills the accumulator with: +∞ everywhere. -/
theorem fill_apply (j : S4x8192.Idx) : (k0_pay3 (F := Ideal) j : EReal) = top := by
  unfold k0_pay3
  rw [shapeCast_self]
  rfl

/-- What a step leaves in the accumulator at (b, k): what it held there, met with the column minimum. -/
theorem meet_apply (x0 : Vec Ideal S4x3x128 .f32) (x1 : Vec Ideal S4x3x8192 .f32) (held : Vec Ideal S4x8192 .f32)
    (b : Fin 4) (k : Fin 8192) :
    (k0_pay4 (F := Ideal) x0 x1 held (ix2 b k) : EReal)
      = min (held (ix2 b k)) (minOver fun r : Fin 128 => sqDist (N := 128) (M := 8192) x0 x1 b r k) := by
  unfold k0_pay4
  dsimp only
  rw [shapeCast_self]
  exact congrArg (min (held (ix2 b k))) (colMin_apply x0 x1 _ b k)

end Cert.KernelIdeal.Tile

end
-- ==== Proof.Steps.lean ====
/-
  What the kernel's buffers hold after each grid step, in terms of the two clouds.

  Step t loads group t of the first cloud — its points 128·t … 128·t + 127 — and the whole second cloud. So the block
  it writes to the first output holds, for those 128 points, their least squared distance to the second cloud; and the
  carried accumulator, which starts from +∞ and meets the tile's column minima at every step, holds after step t the
  least squared distance from each point of the second cloud to the first 128·(t + 1) points of the first. After the
  last step that is the minimum over the whole first cloud, and it is what the second output receives.
-/
import proofs.«144142_j11948599017824_1_alg».proof.Proof.Stores
import proofs.«144142_j11948599017824_1_alg».proof.Proof.Tile

set_option maxRecDepth 16384

noncomputable section

namespace Cert.KernelIdeal.Steps

open Idealize.ShloMosaic Idealize.ShloMosaic.TcCoe Idealize.SL.Sem Idealize.ShloMosaic.ValueIdx
open Cert.KernelIdeal Cert.KernelIdeal.Gen Cert.Nearest

variable (m : (ℓ : Loc nD τ sig) → Buf (Elt Ideal) ℓ)

/-- The first cloud, as the region finds it. -/
abbrev cloudA (c : Dev nD) : Vec Ideal S4x3x8192 .f32 := V m c main_arg0
/-- The second cloud, as the region finds it. -/
abbrev cloudB (c : Dev nD) : Vec Ideal S4x3x8192 .f32 := V m c main_arg1
/-- What step t loads of the first cloud. -/
abbrev grp (c : Dev nD) (t : Fin cfg0.N) : Vec Ideal S4x3x128 .f32 := iblk m c 0 t
/-- What step t loads of the second cloud. -/
abbrev snd (c : Dev nD) (t : Fin cfg0.N) : Vec Ideal S4x3x8192 .f32 := iblk m c 1 t

theorem step_lt (t : Fin cfg0.N) : t.val < 64 := lt_of_lt_of_eq t.isLt N_0

/-- Where each window's block sits at step t: the first input and the first output move along the point axis, the
    second input and the second output stay. -/
theorem block_index : ∀ t : Fin cfg0.N,
    win0_0.index t 0 = 0 ∧ win0_0.index t 1 = 0 ∧ win0_0.index t 2 = t.val
    ∧ win0_1.index t 0 = 0 ∧ win0_1.index t 1 = 0 ∧ win0_1.index t 2 = 0 :=
  (by decide +kernel : ∀ t : Fin grid0.N,
    win0_0.index t 0 = 0 ∧ win0_0.index t 1 = 0 ∧ win0_0.index t 2 = t.val
    ∧ win0_1.index t 0 = 0 ∧ win0_1.index t 1 = 0 ∧ win0_1.index t 2 = 0)

/-- Step t's group is points 128·t … 128·t + 127 of the first cloud. -/
theorem grp_apply (c : Dev nD) (t : Fin cfg0.N) (b : Fin 4) (cc : Fin 3) (r : Fin 128) :
    grp m c t (ix3 b cc r) = cloudA m c (ix3 b cc (group t.val (step_lt t) r)) := by
  obtain ⟨h0, h1, h2, -⟩ := block_index t
  show iblk m c 0 t (ix3 b cc r) = _
  unfold iblk
  rw [View.read_apply]
  show V m c main_arg0 _ = V m c main_arg0 _
  refine congrArg (V m c main_arg0) (funext fun a => Fin.ext ?_)
  match a with
  | ⟨0, _⟩ => show win0_0.index t 0 * 4 + 1 * b.val = b.val; rw [h0]; omega
  | ⟨1, _⟩ => show win0_0.index t 1 * 3 + 1 * cc.val = cc.val; rw [h1]; omega
  | ⟨2, _⟩ => show win0_0.index t 2 * 128 + 1 * r.val = 128 * t.val + r.val; rw [h2]; omega

/-- Every step loads the whole second cloud. -/
theorem snd_eq (c : Dev nD) (t : Fin cfg0.N) : snd m c t = cloudB m c := by
  obtain ⟨-, -, -, h0, h1, h2⟩ := block_index t
  funext j
  show iblk m c 1 t j = _
  unfold iblk
  rw [View.read_apply]
  show V m c main_arg1 _ = V m c main_arg1 _
  refine congrArg (V m c main_arg1) (funext fun a => Fin.ext ?_)
  match a with
  | ⟨0, _⟩ => show win0_1.index t 0 * 4 + 1 * (j 0).val = (j 0).val; rw [h0]; omega
  | ⟨1, _⟩ => show win0_1.index t 1 * 3 + 1 * (j 1).val = (j 1).val; rw [h1]; omega
  | ⟨2, _⟩ => show win0_1.index t 2 * 8192 + 1 * (j 2).val = (j 2).val; rw [h2]; omega

/-- Distances from step t's group are distances from points 128·t + r of the first cloud. -/
theorem dist_step (c : Dev nD) (t : Fin cfg0.N) (b : Fin 4) (r : Fin 128) (k : Fin 8192) :
    sqDist (N := 128) (M := 8192) (grp m c t) (snd m c t) b r k
      = sqDist (N := 8192) (M := 8192) (cloudA m c) (cloudB m c) b (group t.val (step_lt t) r) k := by
  rw [snd_eq]
  exact sqDist_group (cloudA m c) (grp m c t) (cloudB m c) t.val (step_lt t) (fun b cc r => grp_apply m c t b cc r) b r k

/-- The block step t writes to the first output: for its 128 points, the least distance to the second cloud. -/
theorem rowMin_step (c : Dev nD) (t : Fin cfg0.N) (b : Fin 4) (r : Fin 128) :
    (k0_pay2 (F := Ideal) (grp m c t) (snd m c t) (ix2 b r) : EReal)
      = nearestOfA (N := 8192) (M := 8192) (cloudA m c) (cloudB m c) (ix2 b (group t.val (step_lt t) r)) := by
  refine (Tile.rowMin_apply (grp m c t) (snd m c t) b r).trans ?_
  unfold nearestOfA
  exact congrArg minOver (funext fun k => dist_step m c t b r k)

/-- One step on the accumulator: what it held, met with the least distance to the step's group. -/
theorem meet_step (c : Dev nD) (t : Fin cfg0.N) (held : Vec Ideal S4x8192 .f32) (b : Fin 4) (k : Fin 8192) :
    (k0_pay4 (F := Ideal) (grp m c t) (snd m c t) held (ix2 b k) : EReal)
      = min (held (ix2 b k)) (minOver fun r : Fin 128 =>
          sqDist (N := 8192) (M := 8192) (cloudA m c) (cloudB m c) b (group t.val (step_lt t) r) k) := by
  refine (Tile.meet_apply (grp m c t) (snd m c t) held b k).trans ?_
  exact congrArg (min (held (ix2 b k))) (congrArg minOver (funext fun r => dist_step m c t b r k))

/-! ## The accumulator, step after step -/

/-- The distances from point k of the second cloud (batch b) to the points of the first. -/
abbrev toPoint (c : Dev nD) (b : Fin 4) (k : Fin 8192) : Fin 8192 → EReal :=
  fun n => sqDist (N := 8192) (M := 8192) (cloudA m c) (cloudB m c) b n k

/-- After step n the accumulator holds, at (b, k), the least distance from point k of the second cloud to the first
    128·(n + 1) points of the first: by induction on the step — the first step starts from the +∞ fill, every later
    one from what the step before left. -/
theorem acc_after (c : Dev nD) : ∀ (n : ℕ) (h : n < cfg0.N) (b : Fin 4) (k : Fin 8192),
    ((outsAt0 m c n h).2.2 (ix2 b k) : EReal) = minBelow (toPoint m c b k) (n + 1)
  | 0, h, b, k => by
    rw [show outsAt0 m c 0 h = _ from outsAt0_A m c ⟨0, h⟩ rfl (show ¬(0 % 64 = 63) by decide)]
    dsimp only
    refine (congrFun (Stores.first_acc (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩)) (ix2 b k)).trans ?_
    refine (meet_step m c ⟨0, h⟩ _ b k).trans ?_
    rw [minBelow_succ _ 0 (by decide), minBelow_zero, Tile.fill_apply]
  | n + 1, h, b, k => by
    have hN : n + 1 < 64 := step_lt ⟨n + 1, h⟩
    have h0 : ¬(⟨n + 1, h⟩ : Fin cfg0.N).val % 64 = 0 := by dsimp only; omega
    by_cases h1 : (⟨n + 1, h⟩ : Fin cfg0.N).val % 64 = 63
    · rw [show outsAt0 m c (n + 1) h = _ from outsAt0_C m c ⟨n + 1, h⟩ h0 h1]
      dsimp only
      refine (congrFun (Stores.last_acc (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) _) (ix2 b k)).trans ?_
      refine (meet_step m c ⟨n + 1, h⟩ _ b k).trans ?_
      rw [minBelow_succ _ (n + 1) hN]
      exact congrArg (min · _) (acc_after c n _ b k)
    · rw [show outsAt0 m c (n + 1) h = _ from outsAt0_B m c ⟨n + 1, h⟩ h0 h1]
      dsimp only
      refine (congrFun (Stores.middle_acc (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) _) (ix2 b k)).trans ?_
      refine (meet_step m c ⟨n + 1, h⟩ _ b k).trans ?_
      rw [minBelow_succ _ (n + 1) hN]
      exact congrArg (min · _) (acc_after c n _ b k)

/-! ## What reaches the two outputs -/

/-- The block step t leaves for the first output: the least distances of its 128 points, whichever case t is. -/
theorem rows_after (c : Dev nD) (t : Fin cfg0.N) (b : Fin 4) (r : Fin 128) :
    ((outsAt0 m c t.val t.isLt).1 (ix2 b r) : EReal)
      = nearestOfA (N := 8192) (M := 8192) (cloudA m c) (cloudB m c) (ix2 b (group t.val (step_lt t) r)) := by
  have hN := step_lt t
  by_cases h0 : t.val % 64 = 0
  · have h1 : ¬t.val % 64 = 63 := by omega
    rw [outsAt0_A m c t h0 h1]
    dsimp only
    exact (congrFun (Stores.first_rowMin (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)) (ix2 b r)).trans (rowMin_step m c t b r)
  · by_cases h1 : t.val % 64 = 63
    · rw [outsAt0_C m c t h0 h1]
      dsimp only
      exact (congrFun (Stores.last_rowMin (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _) (ix2 b r)).trans (rowMin_step m c t b r)
    · rw [outsAt0_B m c t h0 h1]
      dsimp only
      exact (congrFun (Stores.middle_rowMin (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _) (ix2 b r)).trans (rowMin_step m c t b r)

/-- At the last step the second output receives the accumulator's new contents. -/
theorem copy_last (c : Dev nD) (t : Fin cfg0.N) (h1 : t.val % 64 = 63) (j : S4x8192.Idx) :
    (outsAt0 m c t.val t.isLt).2.1 j = (outsAt0 m c t.val t.isLt).2.2 j := by
  have hN := step_lt t
  have h0 : ¬t.val % 64 = 0 := by omega
  rw [outsAt0_C m c t h0 h1]
  dsimp only
  exact (congrFun (Stores.last_colMin (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _) j).trans
    (congrFun (Stores.last_acc (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _) j).symm

/-- So it receives, at (b, k), the least distance from point k of the second cloud to the whole first cloud. -/
theorem cols_last (c : Dev nD) (t : Fin cfg0.N) (h1 : t.val % 64 = 63) (b : Fin 4) (k : Fin 8192) :
    ((outsAt0 m c t.val t.isLt).2.1 (ix2 b k) : EReal)
      = nearestOfB (N := 8192) (M := 8192) (cloudA m c) (cloudB m c) (ix2 b k) := by
  have hN := step_lt t
  have e : t.val + 1 = 64 := by omega
  rw [copy_last m c t h1, acc_after m c t.val t.isLt b k, e, minBelow_all]
  rfl

end Cert.KernelIdeal.Steps

end
-- ==== Proof.Arrays.lean ====
/-
  The kernel's two result arrays, and its result.

  The first output is written back block by block, step t's block landing on points 128·t … 128·t + 127 — the very
  points the step computed for — so the 64 blocks tile the array and it ends holding, for every point of the first
  cloud, its least squared distance to the second. The second output is written back once, after the last step, whole,
  with the accumulator's final contents: for every point of the second cloud its least squared distance to the first.
  The lines after the kernel then take the loss of the two.
-/
import proofs.«144142_j11948599017824_1_alg».proof.Proof.Steps
import Idealize.ShloMosaic.Lib.StableHlo.Run

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.Nearest Cert.KernelIdeal.Steps

variable (m : (ℓ : Loc nD τ sig) → Buf (Elt Ideal) ℓ) (ρ : Dev nD → PrngReg)

/-- Where the outputs' blocks sit at step t: the first output's moves along the point axis, the second's stays. -/
theorem out_index : ∀ t : Fin cfg0.N,
    win0_2.index t 0 = 0 ∧ win0_2.index t 1 = t.val ∧ win0_3.index t 0 = 0 ∧ win0_3.index t 1 = 0 :=
  (by decide +kernel : ∀ t : Fin grid0.N,
    win0_2.index t 0 = 0 ∧ win0_2.index t 1 = t.val ∧ win0_3.index t 0 = 0 ∧ win0_3.index t 1 = 0)

/-! ## The first output -/

/-- What step t writes back is block t of the nearest-distance array of the first cloud. -/
theorem flushedA (c : Dev nD) (t : Fin cfg0.N) (hf : (cfg0.win 2).flush t = true) :
    (dats m 0 c).flushed 2 t
      = ((cfg0.win 2).blk t).view.read (Elt Ideal) (nearestOfA (N := 8192) (M := 8192) (cloudA m c) (cloudB m c)) := by
  obtain ⟨h0, h1, -, -⟩ := out_index t
  show (cfg0.win 2).cut (grid0.coords t) ((dats m 0 c).after 2 t) = _
  rw [after0_2]
  refine funext fun (j : S4x128.Idx) => ?_
  rw [View.read_apply]
  obtain ⟨b, r, rfl⟩ : ∃ (b : Fin 4) (r : Fin 128), j = ix2 b r := ⟨j 0, j 1, eq_ix2 j⟩
  show (outsAt0 m c t.val t.isLt).1 (ix2 b r) = _
  refine (rows_after m c t b r).trans (congrArg (nearestOfA (N := 8192) (M := 8192) (cloudA m c) (cloudB m c)) (funext fun a => Fin.ext ?_))
  match a with
  | ⟨0, _⟩ => show b.val = win0_2.index t 0 * 4 + 1 * b.val; rw [h0]; omega
  | ⟨1, _⟩ => show 128 * t.val + r.val = win0_2.index t 1 * 128 + 1 * r.val; rw [h1]; omega

/-- Every point lies in the block of the step that computed it. -/
theorem coverA (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 64 := N_0
  have hlt : (i 1).val / 128 < cfg0.N := by omega
  obtain ⟨h0, h1, -, -⟩ := out_index ⟨(i 1).val / 128, hlt⟩
  refine ⟨⟨(i 1).val / 128, hlt⟩, flush0_2 _, ?_⟩
  show i ∈ ((View.whole main_v0_0).slice (win0_2.rect ⟨(i 1).val / 128, hlt⟩)).set
  rw [View.set_slice_whole, Rect.mem_set_unit]
  intro a
  match a with
  | ⟨0, _⟩ =>
    show win0_2.index ⟨(i 1).val / 128, hlt⟩ 0 * 4 ≤ (i 0).val ∧ (i 0).val < win0_2.index ⟨(i 1).val / 128, hlt⟩ 0 * 4 + 4
    rw [h0]; omega
  | ⟨1, _⟩ =>
    show win0_2.index ⟨(i 1).val / 128, hlt⟩ 1 * 128 ≤ (i 1).val ∧ (i 1).val < win0_2.index ⟨(i 1).val / 128, hlt⟩ 1 * 128 + 128
    rw [h1]; dsimp only; omega

/-- The first output ends holding every point's least squared distance to the second cloud. -/
theorem finalA (c : Dev nD) :
    (dats m 0 c).arrAt 2 cfg0.N = nearestOfA (N := 8192) (M := 8192) (cloudA m c) (cloudB m c) :=
  (dats m 0 c).arrAt_eq_of_cover 2 _ (flushedA m c) coverA

/-! ## The second output -/

/-- The one write-back, after the last step, writes the whole nearest-distance array of the second cloud. -/
theorem flushedB (c : Dev nD) (t : Fin cfg0.N) (hf : (cfg0.win 3).flush t = true) :
    (dats m 0 c).flushed 3 t
      = ((cfg0.win 3).blk t).view.read (Elt Ideal) (nearestOfB (N := 8192) (M := 8192) (cloudA m c) (cloudB m c)) := by
  obtain ⟨-, -, h0, h1⟩ := out_index t
  have hl : t.val % 64 = 63 := (flush0_3 t).mp hf
  show (cfg0.win 3).cut (grid0.coords t) ((dats m 0 c).after 3 t) = _
  rw [after0_3]
  refine funext fun (j : S4x8192.Idx) => ?_
  rw [View.read_apply]
  obtain ⟨b, k, rfl⟩ : ∃ (b : Fin 4) (k : Fin 8192), j = ix2 b k := ⟨j 0, j 1, eq_ix2 j⟩
  show (outsAt0 m c t.val t.isLt).2.1 (ix2 b k) = _
  refine (cols_last m c t hl b k).trans (congrArg (nearestOfB (N := 8192) (M := 8192) (cloudA m c) (cloudB m c)) (funext fun a => Fin.ext ?_))
  match a with
  | ⟨0, _⟩ => show b.val = win0_3.index t 0 * 4 + 1 * b.val; rw [h0]; omega
  | ⟨1, _⟩ => show k.val = win0_3.index t 1 * 8192 + 1 * k.val; rw [h1]; omega

/-- The last step's block is the whole array. -/
theorem coverB (i : S4x8192.Idx) : ∃ t : Fin cfg0.N, (cfg0.win 3).flush t = true ∧ i ∈ ((cfg0.win 3).blk t).view.set := by
  have hi0 : (i 0).val < 4 := (i 0).isLt
  have hi1 : (i 1).val < 8192 := (i 1).isLt
  have hN : cfg0.N = 64 := N_0
  have hlt : 63 < cfg0.N := by omega
  obtain ⟨-, -, h0, h1⟩ := out_index ⟨63, hlt⟩
  refine ⟨⟨63, hlt⟩, (flush0_3 _).mpr rfl, ?_⟩
  show i ∈ ((View.whole main_v0_1).slice (win0_3.rect ⟨63, hlt⟩)).set
  rw [View.set_slice_whole, Rect.mem_set_unit]
  intro a
  match a with
  | ⟨0, _⟩ =>
    show win0_3.index ⟨63, hlt⟩ 0 * 4 ≤ (i 0).val ∧ (i 0).val < win0_3.index ⟨63, hlt⟩ 0 * 4 + 4
    rw [h0]; omega
  | ⟨1, _⟩ =>
    show win0_3.index ⟨63, hlt⟩ 1 * 8192 ≤ (i 1).val ∧ (i 1).val < win0_3.index ⟨63, hlt⟩ 1 * 8192 + 8192
    rw [h1]; omega

/-- The second output ends holding every point's least squared distance to the first cloud. -/
theorem finalB (c : Dev nD) :
    (dats m 0 c).arrAt 3 cfg0.N = nearestOfB (N := 8192) (M := 8192) (cloudA m c) (cloudB m c) :=
  (dats m 0 c).arrAt_eq_of_cover 3 _ (flushedB m c) coverB

/-! ## The result -/

/-- The loss of the two nearest-distance arrays: what the lines after the kernel compute from its outputs. -/
abbrev result (c : Dev nD) : Buf (Elt Ideal) ((c : Thread nD τ).loc main_v6) :=
  loss (F := Ideal) Cert.KernelIdeal.Facts₀.reducesTo_S4x8192_S_d0_1 Cert.KernelIdeal.Facts₀.h_S_
    (nearestOfA (N := 8192) (M := 8192) (cloudA m c) (cloudB m c)) (nearestOfB (N := 8192) (M := 8192) (cloudA m c) (cloudB m c))

/-- The lines after the kernel read its two output arrays as the run left them, and nothing else of it. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  exact congrArg₂ (loss (F := Ideal) Cert.KernelIdeal.Facts₀.reducesTo_S4x8192_S_d0_1 Cert.KernelIdeal.Facts₀.h_S_)
    ((Pipeline.withArrays_arr spec0 launch0.win.arr_inj c _ _ 2).trans (finalA m c))
    ((Pipeline.withArrays_arr spec0 launch0.win.arr_inj c _ _ 3).trans (finalB m c))

/-- The kernel program's run, read: every weakly fair execution ends with the result at the loss of the two
    nearest-distance arrays of the clouds it was given, and the clouds unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays

end
-- ==== Proof.RefStages.lean ====
/-
  The reference program read stage by stage, over the extended reals.

  It transposes both clouds to point-major, takes each point's |·|² as a sum over the coordinate axis (from a zero
  start, which adds nothing), the pairwise inner products as one batched product contracting the coordinate axis,
  broadcasts the norms along rows and columns, and clamps |a|² + |b|² − 2⟨a, b⟩ at zero: entry (b, n, k) of its
  distance array is the clamped squared distance between point n of the first cloud and point k of the second. Its
  two minimum-reductions are then the two nearest-distance arrays, and its last lines take their loss.
-/
import proofs.«144142_j11948599017824_1_alg».proof.Proof.Gen.ReferenceIdeal.Read
import proofs.«144142_j11948599017824_1_alg».proof.Proof.Nearest
import Idealize.ShloMosaic.PureOps.Reduce

set_option maxRecDepth 16384

noncomputable section

namespace Cert.ReferenceIdeal.Stages

open Idealize.ShloMosaic Idealize.ShloMosaic.ValueIdx
open Cert.ReferenceIdeal Cert.ReferenceIdeal.Read Cert.Nearest

variable (X Y : (⟨S4x3x8192, .f32⟩ : BufTy).Contents (Elt Ideal))

/-! ## Which entries of the clouds an entry of the distance array reads -/

theorem rowNorm_index (b : Fin 4) (n k : Fin 8192) (c : Fin 3) :
    idx_main_v0 (idx_main_v3 (idx_main_v7 (idx_main_v9 (ix3 b n k))) c) = ix3 b c n :=
  funext fun a => Fin.ext (by match a with | ⟨0, _⟩ => rfl | ⟨1, _⟩ => rfl | ⟨2, _⟩ => rfl)
theorem colNorm_index (b : Fin 4) (n k : Fin 8192) (c : Fin 3) :
    idx_main_v1 (idx_main_v5 (idx_main_v8 (idx_main_v10 (ix3 b n k))) c) = ix3 b c k :=
  funext fun a => Fin.ext (by match a with | ⟨0, _⟩ => rfl | ⟨1, _⟩ => rfl | ⟨2, _⟩ => rfl)
theorem left_index (b : Fin 4) (n k : Fin 8192) (c : Fin 3) :
    idx_main_v0 (lidx_main_v6 (ix3 b n k) c) = ix3 b c n :=
  funext fun a => Fin.ext (by match a with | ⟨0, _⟩ => rfl | ⟨1, _⟩ => rfl | ⟨2, _⟩ => rfl)
theorem right_index (b : Fin 4) (n k : Fin 8192) (c : Fin 3) :
    idx_main_v1 (ridx_main_v6 (ix3 b n k) c) = ix3 b c k :=
  funext fun a => Fin.ext (by match a with | ⟨0, _⟩ => rfl | ⟨1, _⟩ => rfl | ⟨2, _⟩ => rfl)

/-- The distance array at (b, n, k): the clamped squared distance from point n of the first cloud to point k of
    the second. -/
theorem dist_apply (b : Fin 4) (n k : Fin 8192) :
    (val_main_v16 (F := Ideal) X Y (ix3 b n k) : EReal) = sqDist (N := 8192) (M := 8192) X Y b n k := by
  rw [val_main_v16_apply, val_main_v14_apply, val_main_v11_apply, val_main_v13_apply, val_main_v9_apply, val_main_v7_apply,
    val_main_v3_apply, val_main_v10_apply, val_main_v8_apply, val_main_v5_apply, val_main_v12_apply, val_main_cst_1_apply,
    val_main_v6_apply, val_main_v15_apply, val_main_cst_2_apply, val_main_cst_apply, val_main_cst_0_apply]
  simp only [val_main_v2_apply, val_main_v4_apply, val_main_v0_apply, val_main_v1_apply, rowNorm_index, colNorm_index,
    left_index, right_index]
  unfold sqDist normSq pairing
  simp only [Ideal.maximumf_def, Ideal.subf_def, Ideal.addf_def, Ideal.mulf_def, Ideal.ofBits_def, Ideal.ofBits_zero_f32, zero_add]

/-! ## The two minimum-reductions -/

/-- Over the last axis: every point of the first cloud gets its least distance to the second. -/
theorem nearestOfA_eq : val_main_v17 (F := Ideal) X Y = nearestOfA (N := 8192) (M := 8192) X Y := by
  funext j
  obtain ⟨b, n, rfl⟩ : ∃ (b : Fin 4) (n : Fin 8192), j = ix2 b n := ⟨j 0, j 1, eq_ix2 j⟩
  unfold val_main_v17
  refine (Host.reduce_eq_fold_single (α := Ideal .f32) FloatOps.minimumf (val_main_v16 (F := Ideal) X Y) (val_main_cst_3 (F := Ideal))
    Cert.ReferenceIdeal.Facts₀.reducesTo_S4x8192x8192_S4x8192_d2
    ⟨Cert.ReferenceIdeal.Facts₀.reducesTo_S4x8192x8192_S4x8192_d2.1, by decide, Cert.ReferenceIdeal.Facts₀.reducesTo_S4x8192x8192_S4x8192_d2.2⟩
    Cert.ReferenceIdeal.Facts₀.h_S_ (ix2 b n)).trans ?_
  unfold nearestOfA minOver
  refine Finset.fold_congr fun k _ => ?_
  exact (congrArg (val_main_v16 (F := Ideal) X Y) (funext fun a => Fin.ext (by
    match a with
    | ⟨0, _⟩ => rfl
    | ⟨1, _⟩ => rfl
    | ⟨2, _⟩ => rfl))).trans (dist_apply X Y b n k)

/-- Over the middle axis: every point of the second cloud gets its least distance to the first. -/
theorem nearestOfB_eq : val_main_v18 (F := Ideal) X Y = nearestOfB (N := 8192) (M := 8192) X Y := by
  funext j
  obtain ⟨b, k, rfl⟩ : ∃ (b : Fin 4) (k : Fin 8192), j = ix2 b k := ⟨j 0, j 1, eq_ix2 j⟩
  unfold val_main_v18
  refine (Host.reduce_eq_fold_single (α := Ideal .f32) FloatOps.minimumf (val_main_v16 (F := Ideal) X Y) (val_main_cst_4 (F := Ideal))
    Cert.ReferenceIdeal.Facts₀.reducesTo_S4x8192x8192_S4x8192_d1
    ⟨Cert.ReferenceIdeal.Facts₀.reducesTo_S4x8192x8192_S4x8192_d1.1, by decide, Cert.ReferenceIdeal.Facts₀.reducesTo_S4x8192x8192_S4x8192_d1.2⟩
    Cert.ReferenceIdeal.Facts₀.h_S_ (ix2 b k)).trans ?_
  unfold nearestOfB minOver
  refine Finset.fold_congr fun n _ => ?_
  exact (congrArg (val_main_v16 (F := Ideal) X Y) (funext fun a => Fin.ext (by
    match a with
    | ⟨0, _⟩ => rfl
    | ⟨1, _⟩ => rfl
    | ⟨2, _⟩ => rfl))).trans (dist_apply X Y b n k)

/-! ## The result -/

/-- The reference's last lines take the loss of its two minimum-reductions. -/
theorem result_eq : val_main_v24 (F := Ideal) X Y
    = loss (F := Ideal) Cert.ReferenceIdeal.Facts₀.reducesTo_S4x8192_S_d0_1 Cert.ReferenceIdeal.Facts₀.h_S_
        (nearestOfA (N := 8192) (M := 8192) X Y) (nearestOfB (N := 8192) (M := 8192) X Y) := by
  rw [← nearestOfA_eq, ← nearestOfB_eq]
  rfl

end Cert.ReferenceIdeal.Stages

end
-- ==== Proof.lean ====
/-
  The kernel computes the symmetric nearest-neighbour loss of two point clouds, and so does the reference.

  Both programs are given two clouds of 8192 points in three coordinates, in four batches. The reference forms the whole
  8192 × 8192 array of clamped squared distances max(|a|² + |b|² − 2⟨a, b⟩, 0) and takes its minima along each axis;
  the kernel never forms it: it walks the first cloud in 64 groups of 128 points, forms one 128 × 8192 tile at a time,
  writes the tile's row minima straight out, and folds its column minima into a running minimum that starts at +∞ and
  is written out after the last group. Over the extended reals the two agree entry by entry: a tile's entries are the
  distance array's entries for that group of points, and a minimum taken group by group is the minimum (the one law,
  proved in Nearest.lean from "x is below a minimum iff it is below every term"; it needs no finiteness, so the
  precondition is never opened). The same closing lines (two means, one scaled by ten, added) follow in both programs.

  Modules: Nearest (the mathematics), Stores (what a step's stores leave, per case), Tile (the kernel's arithmetic at an
  index), Steps (the buffers after each step, by induction on the step), Arrays (the two output arrays and the
  kernel program's run), RefStages (the reference read stage by stage).
-/
import proofs.«144142_j11948599017824_1_alg».proof.Defs
import proofs.«144142_j11948599017824_1_alg».proof.Proof.Gen.Kernel
import proofs.«144142_j11948599017824_1_alg».proof.Proof.Gen.Kernel.Frame
import proofs.«144142_j11948599017824_1_alg».proof.Proof.Gen.KernelIdeal
import proofs.«144142_j11948599017824_1_alg».proof.Proof.Gen.KernelIdeal.Frame
import proofs.«144142_j11948599017824_1_alg».proof.Proof.Gen.ReferenceIdeal
import proofs.«144142_j11948599017824_1_alg».proof.Proof.Gen.ReferenceIdeal.Run
import proofs.«144142_j11948599017824_1_alg».proof.Proof.Gen.ReferenceIdeal.Read
import proofs.«144142_j11948599017824_1_alg».proof.Proof.Gen.Pre_finite_inputs
import proofs.«144142_j11948599017824_1_alg».proof.Proof.Arrays
import proofs.«144142_j11948599017824_1_alg».proof.Proof.RefStages
import Idealize.ShloMosaic.Adequacy
import Idealize.ShloMosaic.Init

noncomputable section

namespace Cert.Proof

open Idealize.ShloMosaic Idealize.SL.Sem

/-- Both idealized programs end with the loss of the two nearest-distance arrays of the clouds they were given. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Arrays.result m c, Cert.KernelIdeal.Arrays.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.Stages.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
